-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1250000 : Shape := ⟨2, ![2, 1250000]⟩
abbrev S64x64 : Shape := ⟨2, ![64, 64]⟩
abbrev S64 : Shape := ⟨1, ![64]⟩
abbrev S_ : Shape := ⟨0, ![]⟩
abbrev S1x1250000 : Shape := ⟨2, ![1, 1250000]⟩
abbrev S1250000 : Shape := ⟨1, ![1250000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  slices_S2x1250000_S1x1250000_0_0 : S2x1250000.Slices ![0, 0] S1x1250000
  shapeCasts_S1x1250000_S1250000 : S1x1250000.ShapeCasts S1250000
  bcast_S_S1250000 : S_.BroadcastsInDim S1250000 (![] : Fin 0 → Fin S1250000.rank)
  reducesTo_S1250000_S_d0 : S1250000.ReducesTo [0] S_

variable [Facts]

def fn_part2 {F : FTy → Type} [FloatOps F] (main_v28 : IVec S_ 1) (main_v32 : IVec S1250000 1) (main_v34 : IVec S1250000 32) : IVec S_ 1 :=
  let main_c_11 : IVec S_ 32 := constantI S_ 32 50000#32
  let main_v35 : IVec S1250000 32 := broadcastInDim S1250000 ![] bcast_S_S1250000 main_c_11
  let main_v36 : IVec S1250000 1 := cmpi .slt main_v34 main_v35
  let main_v37 : IVec S1250000 1 := andi main_v32 main_v36
  let main_c_12 : IVec S_ 1 := constantI S_ 1 1#1
  let main_v38 : IVec S_ 1 := (fun x v => Host.reduce IntOp.andi x v reducesTo_S1250000_S_d0 h_S_) main_v37 main_c_12
  let main_v39 : IVec S_ 1 := andi main_v28 main_v38
  main_v39

def fn_part1 {F : FTy → Type} [FloatOps F] (main_arg1 : IVec S2x1250000 32) (main_arg5 : FVec F S64x64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : IVec S1x1250000 32 := (extractStridedSlice S1x1250000 ![0, 0] · slices_S2x1250000_S1x1250000_0_0) main_arg1
  let main_v30 : IVec S1250000 32 := shapeCast S1250000 main_v29 shapeCasts_S1x1250000_S1250000
  let main_c_10 : IVec S_ 32 := constantI S_ 32 4294917296#32
  let main_v31 : IVec S1250000 32 := broadcastInDim S1250000 ![] bcast_S_S1250000 main_c_10
  let main_v32 : IVec S1250000 1 := cmpi .sge main_v30 main_v31
  let main_v33 : IVec S1x1250000 32 := (extractStridedSlice S1x1250000 ![0, 0] · slices_S2x1250000_S1x1250000_0_0) main_arg1
  let main_v34 : IVec S1250000 32 := shapeCast S1250000 main_v33 shapeCasts_S1x1250000_S1250000
  fn_part2 (F := F) main_v28 main_v32 main_v34

def fn {F : FTy → Type} [FloatOps F] (main_arg0 : FVec F S50000x64 .f32) (main_arg1 : IVec S2x1250000 32) (main_arg2 : FVec F S64x64 .f32) (main_arg3 : FVec F S64x64 .f32) (main_arg4 : FVec F S64 .f32) (main_arg5 : FVec F S64x64 .f32) (main_arg6 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_v13 main_v16
-- ==== Kernel.lean ====
abbrev S50000x64 : Shape := ⟨2, ![50000, 64]⟩
abbrev S2x1250000 : Shape := ⟨2, ![2, 1250000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1 : Shape := ⟨1, ![1]⟩
abbrev S1x1 : Shape := ⟨2, ![1, 1]⟩
abbrev S1250000x64 : Shape := ⟨2, ![1250000, 64]⟩
abbrev S1x64 : Shape := ⟨2, ![1, 64]⟩
abbrev S5000x64 : Shape := ⟨2, ![5000, 64]⟩

abbrev nBuf : Space → Nat
  | .hbm => 41
  | .vmem => 11
  | .smem => 0
  | _ => 0

abbrev bufTy : (tb : Table) → Fin (tcTables nBuf tb) → BufTy
  | .hbm, ⟨0, _⟩ => ⟨S50000x64, .f32⟩
  | .hbm, ⟨1, _⟩ => ⟨S2x1250000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1x1250000, .i32⟩
  | .hbm, ⟨8, _⟩ => ⟨S1250000, .i32⟩
  | .hbm, ⟨9, _⟩ => ⟨S1x1250000, .i32⟩
  | .hbm, ⟨10, _⟩ => ⟨S1250000, .i32⟩
  | .hbm, ⟨11, _⟩ => ⟨S_, .i32⟩
  | .hbm, ⟨12, _⟩ => ⟨S1250000, .i32⟩
  | .hbm, ⟨13, _⟩ => ⟨S1250000, .i1⟩
  | .hbm, ⟨14, _⟩ => ⟨S_, .i32⟩
  | .hbm, ⟨15, _⟩ => ⟨S1250000, .i32⟩
  | .hbm, ⟨16, _⟩ => ⟨S1250000, .i32⟩
  | .hbm, ⟨17, _⟩ => ⟨S1250000, .i32⟩
  | .hbm, ⟨18, _⟩ => ⟨S1250000x1, .i32⟩
  | .hbm, ⟨19, _⟩ => ⟨S1, .i32⟩
  | .hbm, ⟨20, _⟩ => ⟨S_, .i32⟩
  | .hbm, ⟨21, _⟩ => ⟨S1250000x1, .i32⟩
  | .hbm, ⟨22, _⟩ => ⟨S1250000x1, .i1⟩
  | .hbm, ⟨23, _⟩ => ⟨S1x1, .i32⟩
  | .hbm, ⟨24, _⟩ => ⟨S1250000x1, .i32⟩
  | .hbm, ⟨25, _⟩ => ⟨S1250000x1, .i1⟩
  | .hbm, ⟨26, _⟩ => ⟨S1250000x1, .i1⟩
  | .hbm, ⟨27, _⟩ => ⟨S_, .i1⟩
  | .hbm, ⟨28, _⟩ => ⟨S1250000, .i1⟩
  | .hbm, ⟨29, _⟩ => ⟨S1250000x64, .f32⟩
  | .hbm, ⟨30, _⟩ => ⟨S1250000x64, .i1⟩
  | .hbm, ⟨31, _⟩ => ⟨S_, .f32⟩
  | .hbm, ⟨32, _⟩ => ⟨S1250000x64, .f32⟩
  | .hbm, ⟨33, _⟩ => ⟨S1250000x64, .f32⟩
  | .hbm, ⟨34, _⟩ => ⟨S_, .f32⟩
  | .hbm, ⟨35, _⟩ => ⟨S50000x64, .f32⟩
  | .hbm, ⟨36, _⟩ => ⟨S1250000x1, .i32⟩
  | .hbm, ⟨37, _⟩ => ⟨S50000x64, .f32⟩
  | .hbm, ⟨38, _⟩ => ⟨S1x64, .f32⟩
  | .hbm, ⟨39, _⟩ => ⟨S1x64, .f32⟩
  | .hbm, ⟨40, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S64x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v4 : Ref sig .tc := ⟨.hbm, 33, rfl⟩
abbrev main_cst : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S1250000x1 : S_.BroadcastsInDim S1250000x1 (![] : Fin 0 → Fin S1250000x1.rank)
  bcast_S1_S1x1_1 : S1.BroadcastsInDim S1x1 (![1] : Fin 1 → Fin S1x1.rank)
  bcast_S1x1_S1250000x1_0_1 : S1x1.BroadcastsInDim S1250000x1 (![0, 1] : Fin 2 → Fin S1250000x1.rank)
  reducesTo_S1250000x1_S1250000_d1 : S1250000x1.ReducesTo [1] S1250000
  h_S_ : 0 < S_.numel
  bcast_S1250000_S1250000x64_0 : S1250000.BroadcastsInDim S1250000x64 (![0] : Fin 1 → Fin S1250000x64.rank)
  bcast_S_S1250000x64 : S_.BroadcastsInDim S1250000x64 (![] : Fin 0 → Fin S1250000x64.rank)
  bcast_S_S50000x64 : S_.BroadcastsInDim S50000x64 (![] : Fin 0 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S50000x64_S1250000x1_S1250000x64_1_0_n_n_0_1_164_wf : GatherDims.WF S50000x64 S1250000x1 S1250000x64 [1] [0] [] [0] [] 1 ![1, 64]
  scatter_S50000x64_S1250000x1_S1250000x64_1_0_0_1_wf : ScatterDims.WF S50000x64 S1250000x1 S1250000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S50000x64.size a
  hwx0_7 : ∀ i : grid0.Coords, EltTy.bits .f32 = 32 ∨ (Rect.block (s := S50000x64) S5000x64.size (cc0_transform_7 i) (hinb0_7 i)).WholeWords (EltTy.packing .f32)

variable [Facts₀]

def gather_S50000x64_S1250000x1_S1250000x64_1_0_n_n_0_1_164 : GatherDims S50000x64 S1250000x1 S1250000x64 where
  offsetDims := [1]
  collapsedSliceDims := [0]
  operandBatchingDims := []
  startIndicesBatchingDims := []
  startIndexMap := [0]
  indexVectorDim := 1
  sliceSizes := ![1, 64]
  wf := gather_S50000x64_S1250000x1_S1250000x64_1_0_n_n_0_1_164_wf
def scatter_S50000x64_S1250000x1_S1250000x64_1_0_0_1 : ScatterDims S50000x64 S1250000x1 S1250000x64 where
  updateWindowDims := [1]
  insertedWindowDims := [0]
  scatterDimsToOperandDims := [0]
  indexVectorDim := 1
  wf := scatter_S50000x64_S1250000x1_S1250000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x1250000 : Shape := ⟨2, ![2, 1250000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S1x64 : Shape := ⟨2, ![1, 64]⟩

abbrev nBuf : Space → Nat
  | .hbm => 34
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x1250000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1x1250000, .i32⟩
  | .hbm, ⟨8, _⟩ => ⟨S1250000, .i32⟩
  | .hbm, ⟨9, _⟩ => ⟨S1x1250000, .i32⟩
  | .hbm, ⟨10, _⟩ => ⟨S1250000, .i32⟩
  | .hbm, ⟨11, _⟩ => ⟨S_, .i32⟩
  | .hbm, ⟨12, _⟩ => ⟨S1250000, .i32⟩
  | .hbm, ⟨13, _⟩ => ⟨S1250000, .i1⟩
  | .hbm, ⟨14, _⟩ => ⟨S_, .i32⟩
  | .hbm, ⟨15, _⟩ => ⟨S1250000, .i32⟩
  | .hbm, ⟨16, _⟩ => ⟨S1250000, .i32⟩
  | .hbm, ⟨17, _⟩ => ⟨S1250000, .i32⟩
  | .hbm, ⟨18, _⟩ => ⟨S1250000x1, .i32⟩
  | .hbm, ⟨19, _⟩ => ⟨S1250000x64, .f32⟩
  | .hbm, ⟨20, _⟩ => ⟨S_, .f32⟩
  | .hbm, ⟨21, _⟩ => ⟨S50000x64, .f32⟩
  | .hbm, ⟨22, _⟩ => ⟨S1250000x1, .i32⟩
  | .hbm, ⟨23, _⟩ => ⟨S50000x64, .f32⟩
  | .hbm, ⟨24, _⟩ => ⟨S50000x64, .f32⟩
  | .hbm, ⟨25, _⟩ => ⟨S50000x64, .f32⟩
  | .hbm, ⟨26, _⟩ => ⟨S50000x64, .f32⟩
  | .hbm, ⟨27, _⟩ => ⟨S1x64, .f32⟩
  | .hbm, ⟨28, _⟩ => ⟨S50000x64, .f32⟩
  | .hbm, ⟨29, _⟩ => ⟨S50000x64, .f32⟩
  | .hbm, ⟨30, _⟩ => ⟨S50000x64, .f32⟩
  | .hbm, ⟨31, _⟩ => ⟨S1x64, .f32⟩
  | .hbm, ⟨32, _⟩ => ⟨S50000x64, .f32⟩
  | .hbm, ⟨33, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S1250000x1_S1250000x64_1_0_n_n_0_1_164_wf : GatherDims.WF S50000x64 S1250000x1 S1250000x64 [1] [0] [] [0] [] 1 ![1, 64]
  scatter_S50000x64_S1250000x1_S1250000x64_1_0_0_1_wf : ScatterDims.WF S50000x64 S1250000x1 S1250000x64 [1] [0] [0] 1
  dot_S50000x64_S64x64_S50000x64_1_0_0_1_n_n_wf : DotDims.WF S50000x64 S64x64 S50000x64 [1] [0] [0] [1] [] []

variable [Facts₀]

def gather_S50000x64_S1250000x1_S1250000x64_1_0_n_n_0_1_164 : GatherDims S50000x64 S1250000x1 S1250000x64 where
  offsetDims := [1]
  collapsedSliceDims := [0]
  operandBatchingDims := []
  startIndicesBatchingDims := []
  startIndexMap := [0]
  indexVectorDim := 1
  sliceSizes := ![1, 64]
  wf := gather_S50000x64_S1250000x1_S1250000x64_1_0_n_n_0_1_164_wf
def scatter_S50000x64_S1250000x1_S1250000x64_1_0_0_1 : ScatterDims S50000x64 S1250000x1 S1250000x64 where
  updateWindowDims := [1]
  insertedWindowDims := [0]
  scatterDimsToOperandDims := [0]
  indexVectorDim := 1
  wf := scatter_S50000x64_S1250000x1_S1250000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KernelIndex.lean ====
/-
  Where the blocked program's blocks sit in its arrays.

  Grid point t (t = 0 .. 9) works on block (t, 0) of the two 50000 x 64 inputs and of the output, rows
  5000 t .. 5000 t + 4999, and on block (0, 0), the whole array, of the three weight matrices and the two
  bias rows. So entry (p, j) of a row block is entry (5000 t + p, j) of its array, and an entry of a weight or
  bias block is the same entry of its array.
-/
import proofs.«425712_j10797547782619_1_alg».proof.Proof.Gen.KernelIdeal.Value
import Idealize.ShloMosaic.Lib.ValueIdx

set_option maxRecDepth 16384

noncomputable section

namespace Cert.GraphLinear.Blocked

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

theorem origin2 : (![0, 0] : Fin 2 → Nat) = fun _ => 0 := funext fun a => by fin_cases a <;> rfl

/-- The printed block-index maps over the ten grid points: the two row-blocked inputs and the output are at
    block (t, 0); the weights and bias rows stay at block (0, 0). -/
theorem index_facts : ∀ t : Fin cfg0.N,
    win0_7.index t (0 : Fin 2) = t.val ∧ win0_7.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem point_lt (t : Fin cfg0.N) : t.val < 10 := by
  have h := t.isLt
  have hN : cfg0.N = 10 := N_0
  omega

/-- Row p of block t as a row of the whole array. -/
def rowOf (t : Fin cfg0.N) (p : Fin 5000) : Fin 50000 :=
  ⟨t.val * 5000 + p.val, by have ht := point_lt t; have hp := p.isLt; omega⟩

/-! ## Where a block's entry sits in its array -/

theorem emb_out (t : Fin cfg0.N) (p : Fin 5000) (q : Fin 64) :
    ((cfg0.win 7).blk t).view.emb (ix2 p q) = ix2 (rowOf t p) q := by
  obtain ⟨e0, e1, -⟩ := index_facts t
  funext a; apply Fin.ext
  match a with
  | ⟨0, _⟩ => show win0_7.index t (0 : Fin 2) * 5000 + 1 * p.val = t.val * 5000 + p.val; omega
  | ⟨1, _⟩ => show win0_7.index t (1 : Fin 2) * 64 + 1 * q.val = q.val; omega

theorem emb_z (t : Fin cfg0.N) (p : Fin 5000) (j : Fin 64) :
    ((cfg0.win 0).blk t).view.emb (ix2 p j) = ix2 (rowOf t p) j := by
  obtain ⟨-, -, e0, e1, -⟩ := index_facts t
  funext a; apply Fin.ext
  match a with
  | ⟨0, _⟩ => show win0_0.index t (0 : Fin 2) * 5000 + 1 * p.val = t.val * 5000 + p.val; omega
  | ⟨1, _⟩ => show win0_0.index t (1 : Fin 2) * 64 + 1 * j.val = j.val; omega

theorem emb_agg (t : Fin cfg0.N) (p : Fin 5000) (j : Fin 64) :
    ((cfg0.win 1).blk t).view.emb (ix2 p j) = ix2 (rowOf t p) j := by
  obtain ⟨-, -, -, -, e0, e1, -⟩ := index_facts t
  funext a; apply Fin.ext
  match a with
  | ⟨0, _⟩ => show win0_1.index t (0 : Fin 2) * 5000 + 1 * p.val = t.val * 5000 + p.val; omega
  | ⟨1, _⟩ => show win0_1.index t (1 : Fin 2) * 64 + 1 * j.val = j.val; omega

theorem emb_wroot (t : Fin cfg0.N) (j k : Fin 64) : ((cfg0.win 2).blk t).view.emb (ix2 j k) = ix2 j k := by
  obtain ⟨-, -, -, -, -, -, e0, e1, -⟩ := index_facts t
  funext a; apply Fin.ext
  match a with
  | ⟨0, _⟩ => show win0_2.index t (0 : Fin 2) * 64 + 1 * j.val = j.val; omega
  | ⟨1, _⟩ => show win0_2.index t (1 : Fin 2) * 64 + 1 * k.val = k.val; omega

theorem emb_wnei (t : Fin cfg0.N) (j k : Fin 64) : ((cfg0.win 3).blk t).view.emb (ix2 j k) = ix2 j k := by
  obtain ⟨-, -, -, -, -, -, -, -, e0, e1, -⟩ := index_facts t
  funext a; apply Fin.ext
  match a with
  | ⟨0, _⟩ => show win0_3.index t (0 : Fin 2) * 64 + 1 * j.val = j.val; omega
  | ⟨1, _⟩ => show win0_3.index t (1 : Fin 2) * 64 + 1 * k.val = k.val; omega

theorem emb_bconv (t : Fin cfg0.N) (k : Fin 64) : ((cfg0.win 4).blk t).view.emb (ix2 (0 : Fin 1) k) = ix2 (0 : Fin 1) k := by
  obtain ⟨-, -, -, -, -, -, -, -, -, -, e0, e1, -⟩ := index_facts t
  funext a; apply Fin.ext
  match a with
  | ⟨0, _⟩ => show win0_4.index t (0 : Fin 2) * 1 + 1 * 0 = 0; omega
  | ⟨1, _⟩ => show win0_4.index t (1 : Fin 2) * 64 + 1 * k.val = k.val; omega

theorem emb_wlin (t : Fin cfg0.N) (j k : Fin 64) : ((cfg0.win 5).blk t).view.emb (ix2 j k) = ix2 j k := by
  obtain ⟨-, -, -, -, -, -, -, -, -, -, -, -, e0, e1, -⟩ := index_facts t
  funext a; apply Fin.ext
  match a with
  | ⟨0, _⟩ => show win0_5.index t (0 : Fin 2) * 64 + 1 * j.val = j.val; omega
  | ⟨1, _⟩ => show win0_5.index t (1 : Fin 2) * 64 + 1 * k.val = k.val; omega

theorem emb_blin (t : Fin cfg0.N) (k : Fin 64) : ((cfg0.win 6).blk t).view.emb (ix2 (0 : Fin 1) k) = ix2 (0 : Fin 1) k := by
  obtain ⟨-, -, -, -, -, -, -, -, -, -, -, -, -, -, e0, e1⟩ := index_facts t
  funext a; apply Fin.ext
  match a with
  | ⟨0, _⟩ => show win0_6.index t (0 : Fin 2) * 1 + 1 * 0 = 0; omega
  | ⟨1, _⟩ => show win0_6.index t (1 : Fin 2) * 64 + 1 * k.val = k.val; omega

end Cert.GraphLinear.Blocked

end
-- ==== Proof.Spec.lean ====
/-
  The function both programs compute, one output row at a time.

  Write z for the node features, a for the aggregated neighbour features (the sum, over the edges that
  end at a node, of the source node's feature row), Wr, Wn, Wl for the three 64 x 64 weight matrices and
  bc, bl for the two bias rows. Output row r, column q is

      sum_k ( (sum_j z[r,j] * Wr[j,k]) + (sum_j a[r,j] * Wn[j,k]) + bc[k] ) * Wl[k,q]  +  bl[q].

  It depends on row r of z and of a only. That is why cutting the 50000 rows into ten blocks of 5000
  and treating each block alone gives the same array: no law of arithmetic is needed, only that block t,
  row p is array row 5000 t + p. In particular nothing here asks the entries to be finite.
-/
import Idealize.ShloMosaic.PureOps.Ideal
import Idealize.ShloMosaic.Lib.ValueIdx

noncomputable section

namespace Cert.GraphLinear

open Idealize.ShloMosaic Idealize.ShloMosaic.ValueIdx

/-- One output row from one row of z (`zr`) and one row of the aggregate (`ar`), at column `q`. -/
def rowOut (zr ar : Fin 64 → EReal) (Wr Wn Wl : Fin 64 → Fin 64 → EReal) (bc bl : Fin 64 → EReal) (q : Fin 64) : EReal :=
  (∑ k : Fin 64, ((∑ j : Fin 64, zr j * Wr j k) + (∑ j : Fin 64, ar j * Wn j k) + bc k) * Wl k q) + bl q

/-- A 64 x 64 array as a function of its two coordinates. -/
abbrev mat (W : FVec Ideal ⟨2, ![64, 64]⟩ .f32) : Fin 64 → Fin 64 → EReal := fun j k => W (ix2 j k)

/-- A bias kept as a 1 x 64 row, as a function of its column. -/
abbrev rowVec (b : FVec Ideal ⟨2, ![1, 64]⟩ .f32) : Fin 64 → EReal := fun k => b (ix2 (0 : Fin 1) k)

/-- The whole result over arrays of `R` rows, with the biases kept as 1 x 64 rows (how the blocked program holds them). -/
def layer (R : Nat) (z a : FVec Ideal ⟨2, ![R, 64]⟩ .f32) (Wr Wn : FVec Ideal ⟨2, ![64, 64]⟩ .f32)
    (bc : FVec Ideal ⟨2, ![1, 64]⟩ .f32) (Wl : FVec Ideal ⟨2, ![64, 64]⟩ .f32) (bl : FVec Ideal ⟨2, ![1, 64]⟩ .f32) :
    FVec Ideal ⟨2, ![R, 64]⟩ .f32 :=
  fun i => rowOut (fun j => z (ix2 (i 0) j)) (fun j => a (ix2 (i 0) j)) (mat Wr) (mat Wn) (mat Wl) (rowVec bc) (rowVec bl) (i 1)

theorem layer_apply (R : Nat) (z a : FVec Ideal ⟨2, ![R, 64]⟩ .f32) (Wr Wn : FVec Ideal ⟨2, ![64, 64]⟩ .f32)
    (bc : FVec Ideal ⟨2, ![1, 64]⟩ .f32) (Wl : FVec Ideal ⟨2, ![64, 64]⟩ .f32) (bl : FVec Ideal ⟨2, ![1, 64]⟩ .f32)
    (p : Fin R) (q : Fin 64) :
    layer R z a Wr Wn bc Wl bl (ix2 p q)
      = rowOut (fun j => z (ix2 p j)) (fun j => a (ix2 p j)) (mat Wr) (mat Wn) (mat Wl) (rowVec bc) (rowVec bl) q := rfl

end Cert.GraphLinear

end
-- ==== Proof.KernelBlock.lean ====
/-
  What the blocked program's body computes on one block of 5000 rows.

  Over the extended reals a change of float format is the identity and a matrix product from a zero
  accumulator is the plain sum of products over the 64 inner positions. So the body's one stored value is,
  at row p and column q of the block,

      sum_k ( (sum_j x0[p,j] * x2[j,k]) + (sum_j x1[p,j] * x3[j,k]) + x4[0,k] ) * x5[k,q]  +  x6[0,q],

  the row function of the specification applied to row p of the two 5000 x 64 blocks.
-/
import proofs.«425712_j10797547782619_1_alg».proof.Proof.Gen.KernelIdeal.Skeleton
import proofs.«425712_j10797547782619_1_alg».proof.Proof.Spec
import Idealize.ShloMosaic.Lib.ValueIdx
import Idealize.ShloMosaic.Lib.Pipeline.Value
import Idealize.ShloMosaic.PureOps.Ideal.Laws

noncomputable section

namespace Cert.GraphLinear.Blocked

open Cert.KernelIdeal Cert.KernelIdeal.Gen Idealize.ShloMosaic Idealize.ShloMosaic.ValueIdx

/-! ## The product's operand indices, axis by axis -/

theorem lhs_axis0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_axis1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_axis0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_axis1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A 5000 x 64 by 64 x 64 product from a zero accumulator, at row p, column q: the sum over the inner position. -/
theorem blockProduct_apply {φ₁ φ₂ : FTy} (l : FVec Ideal S5000x64 φ₁) (r : FVec Ideal S64x64 φ₂) (p : Fin 5000) (q : Fin 64) :
    matmul dot_S5000x64_S64x64_S5000x64_1_0_0_1_n_n none l r (constant (F := Ideal) S5000x64 .f32 0x00000000#32) (ix2 p q)
      = ∑ k : Fin 64, l (ix2 p k) * r (ix2 k q) := by
  refine (Ideal.matmul_constant_zero_apply dot_S5000x64_S64x64_S5000x64_1_0_0_1_n_n none l r (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-- A 1 x 64 bias row laid over the 5000 rows reads, at (p, q), the row at column q. -/
theorem biasRows_apply (b : Vec Ideal S1x64 .f32) (h1 : S1x64.ShapeCasts S1x64) (h2 : S1x64.Broadcasts S5000x64) (p : Fin 5000) (q : Fin 64) :
    broadcastTo S5000x64 (shapeCast S1x64 b h1) h2 (ix2 p q) = b (ix2 (0 : Fin 1) q) := by
  rw [shapeCast_self]
  exact broadcastTo_apply b h2 (ix2 p q) (ix2 (0 : Fin 1) q) (fun a => by
    match a with
    | ⟨0, _⟩ => rfl
    | ⟨1, _⟩ => rfl)

/-- THE BODY'S STORED VALUE at row p, column q of a block is the specification's row function of row p. -/
theorem payload_apply (x0 x1 : Vec Ideal S5000x64 .f32) (x2 x3 : Vec Ideal S64x64 .f32) (x4 : Vec Ideal S1x64 .f32)
    (x5 : Vec Ideal S64x64 .f32) (x6 : Vec Ideal S1x64 .f32) (p : Fin 5000) (q : Fin 64) :
    k0_pay1 x0 x1 x2 x3 x4 x5 x6 (ix2 p q)
      = rowOut (fun j => x0 (ix2 p j)) (fun j => x1 (ix2 p j)) (mat x2) (mat x3) (mat x5) (rowVec x4) (rowVec x6) q := by
  unfold k0_pay1
  rw [shapeCast_self]
  unfold rowOut
  -- the last sum: the second product plus the second bias row
  refine (addf_apply _ _ _).trans ?_
  refine congrArg₂ (· + ·) ?_ (biasRows_apply x6 _ _ p q)
  refine (blockProduct_apply _ _ p q).trans ?_
  refine Finset.sum_congr rfl fun k _ => ?_
  refine congrArg₂ (· * ·) ?_ rfl
  -- the hidden row at position k: the two first products plus the first bias row
  change addf (F := Ideal) (s := S5000x64) (φ := .f32) _ _ (ix2 p k) = _
  refine (addf_apply _ _ _).trans ?_
  exact congrArg₂ (· + ·)
    ((addf_apply _ _ _).trans (congrArg₂ (· + ·) (blockProduct_apply _ _ p k) (blockProduct_apply _ _ p k)))
    (biasRows_apply x4 _ _ p k)

end Cert.GraphLinear.Blocked

end
-- ==== Proof.KernelArray.lean ====
/-
  From the ten blocks to the whole output array of the blocked program.

  Grid point t writes rows 5000 t .. 5000 t + 4999 of the output. Row p of what it writes is the
  specification's row function of row p of its two row blocks, that is of rows 5000 t + p of z and of the
  aggregate: row 5000 t + p of the whole-array specification. The ten row blocks cover all 50000 rows (row r
  is in block r / 5000), so the output array ends as the whole-array specification of the arrays the launch
  found.
-/
import proofs.«425712_j10797547782619_1_alg».proof.Proof.KernelIndex
import proofs.«425712_j10797547782619_1_alg».proof.Proof.KernelBlock

set_option maxRecDepth 16384

noncomputable section

namespace Cert.GraphLinear.Blocked

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

/-! ## Reading blocks, for any float values -/

section AnyFloat

variable {F : FTy → Type} [FloatOps F]
variable (m : (ℓ : Loc nD τ sig) → Buf (Elt F) ℓ)

/-- What point t writes back, entry by entry: the body's stored value of the seven input blocks at t. -/
theorem flushed_apply (c : Dev nD) (t : Fin cfg0.N) (y : S5000x64.Idx) :
    (dats m 0 c).flushed 7 t y
      = k0_pay1 (iblk m c 0 t) (iblk m c 1 t) (iblk m c 2 t) (iblk m c 3 t) (iblk m c 4 t) (iblk m c 5 t) (iblk m c 6 t) y := by
  rw [flushed7]
  unfold out0_7
  rw [View.canon_unit_zero origin2]
  simp only [View.ld_unit_zero (S := S5000x64) origin2, View.ld_unit_zero (S := S64x64) origin2, View.ld_unit_zero (S := S1x64) origin2]
  rfl

/-- An array read through the output's block at t, at entry y, is the array at y's place in it. -/
theorem readOut_apply (G : S50000x64.Idx → F .f32) (t : Fin cfg0.N) (y : S5000x64.Idx) :
    ((cfg0.win 7).blk t).view.read (Elt F) G y = G (((cfg0.win 7).blk t).view.emb y) := rfl

theorem iblk_z (c : Dev nD) (t : Fin cfg0.N) (y : S5000x64.Idx) :
    iblk m c 0 t y = (V m c main_arg0 : S50000x64.Idx → F .f32) (((cfg0.win 0).blk t).view.emb y) := rfl
theorem iblk_agg (c : Dev nD) (t : Fin cfg0.N) (y : S5000x64.Idx) :
    iblk m c 1 t y = (V m c main_v7 : S50000x64.Idx → F .f32) (((cfg0.win 1).blk t).view.emb y) := rfl
theorem iblk_wroot (c : Dev nD) (t : Fin cfg0.N) (y : S64x64.Idx) :
    iblk m c 2 t y = (V m c main_arg2 : S64x64.Idx → F .f32) (((cfg0.win 2).blk t).view.emb y) := rfl
theorem iblk_wnei (c : Dev nD) (t : Fin cfg0.N) (y : S64x64.Idx) :
    iblk m c 3 t y = (V m c main_arg3 : S64x64.Idx → F .f32) (((cfg0.win 3).blk t).view.emb y) := rfl
theorem iblk_bconv (c : Dev nD) (t : Fin cfg0.N) (y : S1x64.Idx) :
    iblk m c 4 t y = (V m c main_v8 : S1x64.Idx → F .f32) (((cfg0.win 4).blk t).view.emb y) := rfl
theorem iblk_wlin (c : Dev nD) (t : Fin cfg0.N) (y : S64x64.Idx) :
    iblk m c 5 t y = (V m c main_arg5 : S64x64.Idx → F .f32) (((cfg0.win 5).blk t).view.emb y) := rfl
theorem iblk_blin (c : Dev nD) (t : Fin cfg0.N) (y : S1x64.Idx) :
    iblk m c 6 t y = (V m c main_v9 : S1x64.Idx → F .f32) (((cfg0.win 6).blk t).view.emb y) := rfl

end AnyFloat

/-! ## The value, over the extended reals -/

variable (m : (ℓ : Loc nD τ sig) → Buf (Elt Ideal) ℓ) (ρ : Dev nD → PrngReg)

abbrev zArr (c : Dev nD) : FVec Ideal S50000x64 .f32 := V m c main_arg0
abbrev aggArr (c : Dev nD) : FVec Ideal S50000x64 .f32 := V m c main_v7
abbrev wrootArr (c : Dev nD) : FVec Ideal S64x64 .f32 := V m c main_arg2
abbrev wneiArr (c : Dev nD) : FVec Ideal S64x64 .f32 := V m c main_arg3
abbrev bconvArr (c : Dev nD) : FVec Ideal S1x64 .f32 := V m c main_v8
abbrev wlinArr (c : Dev nD) : FVec Ideal S64x64 .f32 := V m c main_arg5
abbrev blinArr (c : Dev nD) : FVec Ideal S1x64 .f32 := V m c main_v9

/-- The whole-array specification of what the launch finds. -/
def found (c : Dev nD) : FVec Ideal S50000x64 .f32 :=
  layer 50000 (zArr m c) (aggArr m c) (wrootArr m c) (wneiArr m c) (bconvArr m c) (wlinArr m c) (blinArr m c)

theorem found_apply (c : Dev nD) (r : Fin 50000) (q : Fin 64) :
    found m c (ix2 r q) = rowOut (fun j => zArr m c (ix2 r j)) (fun j => aggArr m c (ix2 r j)) (mat (wrootArr m c)) (mat (wneiArr m c))
      (mat (wlinArr m c)) (rowVec (bconvArr m c)) (rowVec (blinArr m c)) q := rfl

/-- WHAT POINT t WRITES BACK is block t of the whole-array specification. -/
theorem flushed_eq (c : Dev nD) (t : Fin cfg0.N) :
    (dats m 0 c).flushed 7 t = ((cfg0.win 7).blk t).view.read (Elt Ideal) (found m c) := by
  funext y
  obtain ⟨p, q, rfl⟩ : ∃ (p : Fin 5000) (q : Fin 64), y = ix2 p q := ⟨y 0, y 1, eq_ix2 y⟩
  rw [flushed_apply, readOut_apply, emb_out t p q, found_apply]
  refine (payload_apply (iblk m c 0 t) (iblk m c 1 t) (iblk m c 2 t) (iblk m c 3 t) (iblk m c 4 t) (iblk m c 5 t) (iblk m c 6 t) p q).trans ?_
  have e0 : ∀ j : Fin 64, iblk m c 0 t (ix2 p j) = zArr m c (ix2 (rowOf t p) j) := fun j => by rw [iblk_z, emb_z]
  have e1 : ∀ j : Fin 64, iblk m c 1 t (ix2 p j) = aggArr m c (ix2 (rowOf t p) j) := fun j => by rw [iblk_agg, emb_agg]
  have e2 : ∀ j k : Fin 64, iblk m c 2 t (ix2 j k) = wrootArr m c (ix2 j k) := fun j k => by rw [iblk_wroot, emb_wroot]
  have e3 : ∀ j k : Fin 64, iblk m c 3 t (ix2 j k) = wneiArr m c (ix2 j k) := fun j k => by rw [iblk_wnei, emb_wnei]
  have e4 : ∀ k : Fin 64, iblk m c 4 t (ix2 (0 : Fin 1) k) = bconvArr m c (ix2 (0 : Fin 1) k) := fun k => by rw [iblk_bconv, emb_bconv]
  have e5 : ∀ j k : Fin 64, iblk m c 5 t (ix2 j k) = wlinArr m c (ix2 j k) := fun j k => by rw [iblk_wlin, emb_wlin]
  have e6 : ∀ k : Fin 64, iblk m c 6 t (ix2 (0 : Fin 1) k) = blinArr m c (ix2 (0 : Fin 1) k) := fun k => by rw [iblk_blin, emb_blin]
  have m2 : mat (iblk m c 2 t) = mat (wrootArr m c) := funext fun j => funext fun k => e2 j k
  have m3 : mat (iblk m c 3 t) = mat (wneiArr m c) := funext fun j => funext fun k => e3 j k
  have m5 : mat (iblk m c 5 t) = mat (wlinArr m c) := funext fun j => funext fun k => e5 j k
  have v4 : rowVec (iblk m c 4 t) = rowVec (bconvArr m c) := funext fun k => e4 k
  have v6 : rowVec (iblk m c 6 t) = rowVec (blinArr m c) := funext fun k => e6 k
  simp only [e0, e1]
  rw [m2, m3, m5, v4, v6]

/-- An index of the output array is in point t's block iff each coordinate is in the block's range on its axis. -/
theorem mem_block (t : Fin cfg0.N) (i : S50000x64.Idx) :
    i ∈ ((cfg0.win 7).blk t).view.set ↔ ∀ a : Fin 2, win0_7.index t a * S5000x64.size a ≤ (i a).val ∧ (i a).val < win0_7.index t a * S5000x64.size a + S5000x64.size a := by
  show i ∈ ((View.whole main_v10).slice (win0_7.rect t)).set ↔ _
  rw [View.set_slice_whole, Rect.mem_set_unit]
  exact Iff.rfl

/-- Every index of the output array is in some point's block: row r in block r / 5000. -/
theorem covered (i : S50000x64.Idx) :
    ∃ t : Fin cfg0.N, (cfg0.win 7).flush t = true ∧ i ∈ ((cfg0.win 7).blk t).view.set := by
  have hi0 : (i 0).val < 50000 := (i 0).isLt
  have hi1 : (i 1).val < 64 := (i 1).isLt
  have hN : cfg0.N = 10 := N_0
  refine ⟨⟨(i 0).val / 5000, by rw [hN]; omega⟩, flush0_7 _, ?_⟩
  rw [mem_block]
  obtain ⟨e0, e1, -⟩ := index_facts ⟨(i 0).val / 5000, by rw [hN]; omega⟩
  intro a
  match a with
  | ⟨0, _⟩ =>
    show win0_7.index _ (0 : Fin 2) * 5000 ≤ (i 0).val ∧ (i 0).val < win0_7.index _ (0 : Fin 2) * 5000 + 5000
    rw [e0]; show (i 0).val / 5000 * 5000 ≤ (i 0).val ∧ (i 0).val < (i 0).val / 5000 * 5000 + 5000; omega
  | ⟨1, _⟩ =>
    show win0_7.index _ (1 : Fin 2) * 64 ≤ (i 1).val ∧ (i 1).val < win0_7.index _ (1 : Fin 2) * 64 + 64
    rw [e1]; omega

/-- THE OUTPUT ARRAY after the run is the whole-array specification of what the launch found. -/
theorem final (c : Dev nD) : (dats m 0 c).arrAt 7 cfg0.N = found m c :=
  (dats m 0 c).arrAt_eq_of_cover 7 (found m c) (fun t _ => flushed_eq m c t) covered

end Cert.GraphLinear.Blocked

end
-- ==== Proof.KernelHostDefs.lean ====
/-
  The blocked program before its one launch: what the launch finds in the arrays it reads.

  From the edge list (2 x 1250000 integers: row 0 the source node of each edge, row 1 its destination) the
  host part forms, per edge, the source index made non-negative (a negative index counts from the end:
  50000 is added to it), takes that row of z, replaces the row by the "no number" filler when the index is
  not in 0 .. 49999, and adds the rows up by destination into a 50000 x 64 array of zeros. The two biases
  are handed over as 1 x 64 rows. The other arrays the launch reads are arguments, untouched.
-/
import proofs.«425712_j10797547782619_1_alg».proof.Proof.Gen.KernelIdeal

noncomputable section

namespace Cert.GraphLinear.Blocked

open Cert.KernelIdeal Cert.KernelIdeal.Gen Idealize.ShloMosaic

variable {F : FTy → Type} [FloatOps F]

/-- Row `r` of the edge list, as a vector over the edges. -/
def edgeRow (r : Nat) (hs : S2x1250000.Slices ![r, 0] S1x1250000) (ei : IVec S2x1250000 32) : IVec S1250000 32 :=
  shapeCast S1250000 (extractStridedSlice S1x1250000 ![r, 0] ei hs) shapeCasts_S1x1250000_S1250000

/-- Each edge's source index. -/
def src (ei : IVec S2x1250000 32) : IVec S1250000 32 := edgeRow 0 slices_S2x1250000_S1x1250000_0_0 ei

/-- Each edge's destination index. -/
def dst (ei : IVec S2x1250000 32) : IVec S1250000 32 := edgeRow 1 slices_S2x1250000_S1x1250000_1_0 ei

/-- The source index counted from the front: 50000 added where it is negative. -/
def srcFront (ei : IVec S2x1250000 32) : IVec S1250000 32 :=
  select (cmpi .slt (src ei) (broadcastInDim S1250000 ![] bcast_S_S1250000 (constantI S_ 32 0#32)))
    (addi (src ei) (broadcastInDim S1250000 ![] bcast_S_S1250000 (constantI S_ 32 50000#32))) (src ei)

/-- The same as the one-column table of start indices the row lookup takes. -/
def startCol (ei : IVec S2x1250000 32) : IVec S1250000x1 32 :=
  broadcastInDim S1250000x1 ![0] bcast_S1250000_S1250000x1_0 (srcFront ei)

/-- Per edge and column: is the start index within 0 .. 49999? -/
def inRange (ei : IVec S2x1250000 32) : IVec S1250000x64 1 :=
  broadcastInDim S1250000x64 ![0] bcast_S1250000_S1250000x64_0
    (Host.reduce IntOp.andi
      (andi (cmpi .sge (startCol ei) (broadcastInDim S1250000x1 ![] bcast_S_S1250000x1 (constantI S_ 32 0#32)))
        (cmpi .sle (startCol ei) (broadcastInDim S1250000x1 ![0, 1] bcast_S1x1_S1250000x1_0_1
          (broadcastInDim S1x1 ![1] bcast_S1_S1x1_1 (constantI S1 32 49999#32)))))
      (constantI S_ 1 1#1) reducesTo_S1250000x1_S1250000_d1 h_S_)

/-- Per edge, the row of z at its start index (the lookup itself keeps any index inside the table). -/
def looked (z : FVec F S50000x64 .f32) (ei : IVec S2x1250000 32) : FVec F S1250000x64 .f32 :=
  Host.gather gather_S50000x64_S1250000x1_S1250000x64_1_0_n_n_0_1_164 z (startCol ei)

/-- Per edge, that row, or the filler where the index is out of range. -/
def taken (z : FVec F S50000x64 .f32) (ei : IVec S2x1250000 32) : FVec F S1250000x64 .f32 :=
  select (inRange ei) (looked z ei) (broadcastInDim S1250000x64 ![] bcast_S_S1250000x64 (constant S_ .f32 0x7FC00000#32))

/-- Rows `msg` added up by destination into zeros. -/
def summed (ei : IVec S2x1250000 32) (msg : FVec F S1250000x64 .f32) : FVec F S50000x64 .f32 :=
  Host.scatterAdd scatter_S50000x64_S1250000x1_S1250000x64_1_0_0_1
    (broadcastInDim S50000x64 ![] bcast_S_S50000x64 (constant S_ .f32 0x00000000#32))
    (broadcastInDim S1250000x1 ![0] bcast_S1250000_S1250000x1_0 (dst ei)) msg

end Cert.GraphLinear.Blocked

end
-- ==== Proof.KernelHost.lean ====
/-
  The blocked program's host part read back: what the launch finds in the aggregate buffer, as a function
  of the arguments.

  The host part is three stretches of operations run one after the other, and the middle one (the outlined
  row lookup) is read here in three pieces. Each piece is read on its own, from ANY contents of the buffers
  before it: the first stretch cuts the edge list into the source and destination vectors; the lookup forms
  the start-index column from the source vector, then the per-edge range test from the column, then the
  taken rows from z, the column and the test; the last stretch sums the taken rows up by destination.
  Chained, they give the aggregate from the arguments.
-/
import proofs.«425712_j10797547782619_1_alg».proof.Proof.Gen.KernelIdeal.Frame
import proofs.«425712_j10797547782619_1_alg».proof.Proof.KernelHostDefs
import Idealize.ShloMosaic.Lib.StableHlo.Run

noncomputable section

namespace Cert.GraphLinear.Blocked

open Cert.KernelIdeal Cert.KernelIdeal.Gen Idealize.ShloMosaic Idealize.ShloMosaic.TcCoe Idealize.SL.Sem Idealize.ShloMosaic.StableHlo

variable {F : FTy → Type} [FloatOps F]

/-! ## The lookup's quantities, from the vector of source indices -/

/-- The source indices counted from the front. -/
def frontOf (s : IVec S1250000 32) : IVec S1250000 32 :=
  select (cmpi .slt s (broadcastInDim S1250000 ![] bcast_S_S1250000 (constantI S_ 32 0#32)))
    (addi s (broadcastInDim S1250000 ![] bcast_S_S1250000 (constantI S_ 32 50000#32))) s

/-- As the one-column table of start indices. -/
def startColOf (s : IVec S1250000 32) : IVec S1250000x1 32 :=
  broadcastInDim S1250000x1 ![0] bcast_S1250000_S1250000x1_0 (frontOf s)

/-- Per edge: is the start index in the column within 0 .. 49999? -/
def edgeOk (sc : IVec S1250000x1 32) : IVec S1250000 1 :=
  Host.reduce IntOp.andi
    (andi (cmpi .sge sc (broadcastInDim S1250000x1 ![] bcast_S_S1250000x1 (constantI S_ 32 0#32)))
      (cmpi .sle sc (broadcastInDim S1250000x1 ![0, 1] bcast_S1x1_S1250000x1_0_1
        (broadcastInDim S1x1 ![1] bcast_S1_S1x1_1 (constantI S1 32 49999#32)))))
    (constantI S_ 1 1#1) reducesTo_S1250000x1_S1250000_d1 h_S_

/-- The taken rows from z, the start-index column and the per-edge test. -/
def takenFrom (z : FVec F S50000x64 .f32) (sc : IVec S1250000x1 32) (ok : IVec S1250000 1) : FVec F S1250000x64 .f32 :=
  select (broadcastInDim S1250000x64 ![0] bcast_S1250000_S1250000x64_0 ok)
    (Host.gather gather_S50000x64_S1250000x1_S1250000x64_1_0_n_n_0_1_164 z sc)
    (broadcastInDim S1250000x64 ![] bcast_S_S1250000x64 (constant S_ .f32 0x7FC00000#32))

theorem takenFrom_src (z : FVec F S50000x64 .f32) (ei : IVec S2x1250000 32) :
    takenFrom z (startColOf (src ei)) (edgeOk (startColOf (src ei))) = taken z ei := rfl

/-! ## The lookup's 23 operations in three pieces -/

/-- The start-index column from the source vector (8 operations). -/
abbrev lookupCol : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S1250000, .i32⟩) (broadcastInDim S1250000 ![] bcast_S_S1250000),
    StableHlo.TRef.binary (.of main_v1 : StableHlo.TRef sig ⟨S1250000, .i32⟩) (.of main_call0_v0 : StableHlo.TRef sig ⟨S1250000, .i32⟩) (.of main_call0_v1 : StableHlo.TRef sig ⟨S1250000, .i1⟩) (cmpi .slt),
    StableHlo.TRef.nullary (.of main_call0_c_0 : StableHlo.TRef sig ⟨S_, .i32⟩) (constantI S_ 32 50000#32),
    StableHlo.TRef.unary (.of main_call0_c_0 : StableHlo.TRef sig ⟨S_, .i32⟩) (.of main_call0_v2 : StableHlo.TRef sig ⟨S1250000, .i32⟩) (broadcastInDim S1250000 ![] bcast_S_S1250000),
    StableHlo.TRef.binary (.of main_v1 : StableHlo.TRef sig ⟨S1250000, .i32⟩) (.of main_call0_v2 : StableHlo.TRef sig ⟨S1250000, .i32⟩) (.of main_call0_v3 : StableHlo.TRef sig ⟨S1250000, .i32⟩) addi,
    StableHlo.TRef.ternary (.of main_call0_v1 : StableHlo.TRef sig ⟨S1250000, .i1⟩) (.of main_call0_v3 : StableHlo.TRef sig ⟨S1250000, .i32⟩) (.of main_v1 : StableHlo.TRef sig ⟨S1250000, .i32⟩) (.of main_call0_v4 : StableHlo.TRef sig ⟨S1250000, .i32⟩) select,
    StableHlo.TRef.unary main_call0_call0.v0 (.of main_call0_v5 : StableHlo.TRef sig ⟨S1250000x1, .i32⟩) (broadcastInDim S1250000x1 ![0] bcast_S1250000_S1250000x1_0) ]

/-- The per-edge range test from the column (10 operations). -/
abbrev lookupTest : List (HloOp τ sig (Elt F)) :=
  [ StableHlo.TRef.nullary (.of main_call0_c_1 : StableHlo.TRef sig ⟨S1, .i32⟩) (constantI S1 32 49999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S1250000x1, .i32⟩) (broadcastInDim S1250000x1 ![] bcast_S_S1250000x1),
    StableHlo.TRef.binary (.of main_call0_v5 : StableHlo.TRef sig ⟨S1250000x1, .i32⟩) (.of main_call0_v6 : StableHlo.TRef sig ⟨S1250000x1, .i32⟩) (.of main_call0_v7 : StableHlo.TRef sig ⟨S1250000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S1250000x1, .i32⟩) (broadcastInDim S1250000x1 ![0, 1] bcast_S1x1_S1250000x1_0_1),
    StableHlo.TRef.binary (.of main_call0_v5 : StableHlo.TRef sig ⟨S1250000x1, .i32⟩) (.of main_call0_v9 : StableHlo.TRef sig ⟨S1250000x1, .i32⟩) (.of main_call0_v10 : StableHlo.TRef sig ⟨S1250000x1, .i1⟩) (cmpi .sle),
    StableHlo.TRef.binary (.of main_call0_v7 : StableHlo.TRef sig ⟨S1250000x1, .i1⟩) (.of main_call0_v10 : StableHlo.TRef sig ⟨S1250000x1, .i1⟩) (.of main_call0_v11 : StableHlo.TRef sig ⟨S1250000x1, .i1⟩) andi,
    StableHlo.TRef.nullary (.of main_call0_c_3 : StableHlo.TRef sig ⟨S_, .i1⟩) (constantI S_ 1 1#1),
    StableHlo.TRef.binary (.of main_call0_v11 : StableHlo.TRef sig ⟨S1250000x1, .i1⟩) (.of main_call0_c_3 : StableHlo.TRef sig ⟨S_, .i1⟩) (.of main_call0_v12 : StableHlo.TRef sig ⟨S1250000, .i1⟩) (fun x v => Host.reduce IntOp.andi x v reducesTo_S1250000x1_S1250000_d1 h_S_) ]

/-- The taken rows (5 operations). -/
abbrev lookupTake : List (HloOp τ sig (Elt F)) :=
  [ StableHlo.TRef.binary (.of main_arg0 : StableHlo.TRef sig ⟨S50000x64, .f32⟩) (.of main_call0_v5 : StableHlo.TRef sig ⟨S1250000x1, .i32⟩) (.of main_call0_v13 : StableHlo.TRef sig ⟨S1250000x64, .f32⟩) (fun x i => Host.gather gather_S50000x64_S1250000x1_S1250000x64_1_0_n_n_0_1_164 x i),
    StableHlo.TRef.unary (.of main_call0_v12 : StableHlo.TRef sig ⟨S1250000, .i1⟩) (.of main_call0_v14 : StableHlo.TRef sig ⟨S1250000x64, .i1⟩) (broadcastInDim S1250000x64 ![0] bcast_S1250000_S1250000x64_0),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S1250000x64, .f32⟩) (broadcastInDim S1250000x64 ![] bcast_S_S1250000x64),
    StableHlo.TRef.ternary (.of main_call0_v14 : StableHlo.TRef sig ⟨S1250000x64, .i1⟩) (.of main_call0_v13 : StableHlo.TRef sig ⟨S1250000x64, .f32⟩) (.of main_call0_v15 : StableHlo.TRef sig ⟨S1250000x64, .f32⟩) (.of main_v4 : StableHlo.TRef sig ⟨S1250000x64, .f32⟩) select ]

theorem lookup_pieces : (hostOps0_1 : List (HloOp τ sig (Elt F))) = lookupCol ++ (lookupTest ++ lookupTake) := rfl

/-! ## Each piece, from any contents before it -/

variable (W : Valuation τ sig (Elt F))

set_option maxHeartbeats 4000000 in
theorem first_src :
    (after (hostOps0 (F := F)) W (main_v1 : DevRef τ sig) : S1250000.Idx → BitVec 32) = src (W (main_arg1 : DevRef τ sig)) := by
  after_results
  all_goals (try simp only [cast_eq])
  all_goals (try rfl)

set_option maxHeartbeats 4000000 in
theorem first_dst :
    (after (hostOps0 (F := F)) W (main_v3 : DevRef τ sig) : S1250000.Idx → BitVec 32) = dst (W (main_arg1 : DevRef τ sig)) := by
  after_results
  all_goals (try simp only [cast_eq])
  all_goals (try rfl)

set_option maxHeartbeats 4000000 in
theorem first_z :
    (after (hostOps0 (F := F)) W (main_arg0 : DevRef τ sig) : S50000x64.Idx → F .f32) = W (main_arg0 : DevRef τ sig) := by
  after_results
  all_goals (try simp only [cast_eq])
  all_goals (try rfl)

set_option maxHeartbeats 4000000 in
theorem col_start :
    (after (lookupCol (F := F)) W (main_call0_v5 : DevRef τ sig) : S1250000x1.Idx → BitVec 32) = startColOf (W (main_v1 : DevRef τ sig)) := by
  unfold startColOf frontOf
  after_results
  all_goals (try simp only [cast_eq])
  all_goals (try rfl)

set_option maxHeartbeats 4000000 in
theorem col_z :
    (after (lookupCol (F := F)) W (main_arg0 : DevRef τ sig) : S50000x64.Idx → F .f32) = W (main_arg0 : DevRef τ sig) := by
  after_results
  all_goals (try simp only [cast_eq])
  all_goals (try rfl)

set_option maxHeartbeats 4000000 in
theorem col_dst :
    (after (lookupCol (F := F)) W (main_v3 : DevRef τ sig) : S1250000.Idx → BitVec 32) = W (main_v3 : DevRef τ sig) := by
  after_results
  all_goals (try simp only [cast_eq])
  all_goals (try rfl)

attribute [local irreducible] Host.reduce in
set_option maxHeartbeats 4000000 in
theorem test_ok :
    (after (lookupTest (F := F)) W (main_call0_v12 : DevRef τ sig) : S1250000.Idx → BitVec 1) = edgeOk (W (main_call0_v5 : DevRef τ sig)) := by
  unfold edgeOk
  after_results
  all_goals (try simp only [cast_eq])
  all_goals (try rfl)

set_option maxHeartbeats 4000000 in
theorem test_start :
    (after (lookupTest (F := F)) W (main_call0_v5 : DevRef τ sig) : S1250000x1.Idx → BitVec 32) = W (main_call0_v5 : DevRef τ sig) := by
  after_results
  all_goals (try simp only [cast_eq])
  all_goals (try rfl)

set_option maxHeartbeats 4000000 in
theorem test_z :
    (after (lookupTest (F := F)) W (main_arg0 : DevRef τ sig) : S50000x64.Idx → F .f32) = W (main_arg0 : DevRef τ sig) := by
  after_results
  all_goals (try simp only [cast_eq])
  all_goals (try rfl)

set_option maxHeartbeats 4000000 in
theorem test_dst :
    (after (lookupTest (F := F)) W (main_v3 : DevRef τ sig) : S1250000.Idx → BitVec 32) = W (main_v3 : DevRef τ sig) := by
  after_results
  all_goals (try simp only [cast_eq])
  all_goals (try rfl)

attribute [local irreducible] Host.gather in
set_option maxHeartbeats 4000000 in
theorem take_rows :
    (after (lookupTake (F := F)) W (main_v4 : DevRef τ sig) : S1250000x64.Idx → F .f32)
      = takenFrom (W (main_arg0 : DevRef τ sig)) (W (main_call0_v5 : DevRef τ sig)) (W (main_call0_v12 : DevRef τ sig)) := by
  unfold takenFrom
  after_results
  all_goals (try simp only [cast_eq])
  all_goals (try rfl)

set_option maxHeartbeats 4000000 in
theorem take_dst :
    (after (lookupTake (F := F)) W (main_v3 : DevRef τ sig) : S1250000.Idx → BitVec 32) = W (main_v3 : DevRef τ sig) := by
  after_results
  all_goals (try simp only [cast_eq])
  all_goals (try rfl)

set_option maxHeartbeats 4000000 in
theorem third_agg :
    (after (hostOps0_2 (F := F)) W (main_v7 : DevRef τ sig) : S50000x64.Idx → F .f32)
      = Host.scatterAdd scatter_S50000x64_S1250000x1_S1250000x64_1_0_0_1
          (broadcastInDim S50000x64 ![] bcast_S_S50000x64 (constant S_ .f32 0x00000000#32))
          (broadcastInDim S1250000x1 ![0] bcast_S1250000_S1250000x1_0 (W (main_v3 : DevRef τ sig)))
          (W (main_v4 : DevRef τ sig)) := by
  after_results
  all_goals (try simp only [cast_eq])
  all_goals (try rfl)

/-! ## Chained -/

/-- The whole lookup: the taken rows from z and the source vector, from any contents before it. -/
theorem second_taken :
    (after (hostOps0_1 (F := F)) W (main_v4 : DevRef τ sig) : S1250000x64.Idx → F .f32)
      = takenFrom (W (main_arg0 : DevRef τ sig)) (startColOf (W (main_v1 : DevRef τ sig))) (edgeOk (startColOf (W (main_v1 : DevRef τ sig)))) := by
  rw [lookup_pieces, StableHlo.after_append, StableHlo.after_append, take_rows, test_ok, test_start, test_z, col_start, col_z]

/-- The lookup leaves the destination vector alone. -/
theorem second_dst :
    (after (hostOps0_1 (F := F)) W (main_v3 : DevRef τ sig) : S1250000.Idx → BitVec 32) = W (main_v3 : DevRef τ sig) := by
  rw [lookup_pieces, StableHlo.after_append, StableHlo.after_append, take_dst, test_dst, col_dst]

variable (m : (ℓ : Loc nD τ sig) → Buf (Elt F) ℓ)

/-- The launch's view of a buffer is the three stretches run in order from the launch contents. -/
theorem V_stretches (c : Dev nD) (b : Ref sig .tc) :
    V m c b = after hostOps0_2 (after hostOps0_1 (after hostOps0 (fun b => m (c, b)))) (b : DevRef τ sig) := by
  dsimp only [V]
  rw [List.flatten_cons, List.flatten_cons, List.flatten_cons, List.flatten_nil, List.append_nil, StableHlo.after_append,
    StableHlo.after_append]

/-- The aggregate the launch reads. -/
theorem V_agg (c : Dev nD) :
    (V m c main_v7 : S50000x64.Idx → F .f32)
      = summed (m ((c : Thread nD τ).loc main_arg1)) (taken (m ((c : Thread nD τ).loc main_arg0)) (m ((c : Thread nD τ).loc main_arg1))) := by
  rw [V_stretches, third_agg, second_taken, second_dst, first_src, first_dst, first_z, takenFrom_src]
  rfl

end Cert.GraphLinear.Blocked

end
-- ==== Proof.KernelHostBias.lean ====
/-
  The two biases as the blocked program's launch reads them: the 64 numbers of each, re-laid as a 1 x 64 row.
-/
import proofs.«425712_j10797547782619_1_alg».proof.Proof.Gen.KernelIdeal.Frame
import Idealize.ShloMosaic.Lib.StableHlo.Run

noncomputable section

namespace Cert.GraphLinear.Blocked

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

attribute [local irreducible] Host.reduce Host.gather Host.scatterAdd in
set_option maxRecDepth 65536 in
set_option maxHeartbeats 4000000 in
/-- The first bias as the launch reads it: the 64 numbers as a 1 x 64 row. -/
theorem V_biasConv (c : Dev nD) :
    (V m c main_v8 : S1x64.Idx → F .f32) = shapeCast S1x64 (m ((c : Thread nD τ).loc main_arg4)) shapeCasts_S64_S1x64 := by
  dsimp only [V]
  simp only [hostOps0, hostOps0_1, hostOps0_2, List.flatten_cons, List.flatten_nil, List.append_nil, List.cons_append,
    List.nil_append]
  after_results
  rfl

attribute [local irreducible] Host.reduce Host.gather Host.scatterAdd in
set_option maxRecDepth 65536 in
set_option maxHeartbeats 4000000 in
/-- The second bias likewise. -/
theorem V_biasLin (c : Dev nD) :
    (V m c main_v9 : S1x64.Idx → F .f32) = shapeCast S1x64 (m ((c : Thread nD τ).loc main_arg6)) shapeCasts_S64_S1x64 := by
  dsimp only [V]
  simp only [hostOps0, hostOps0_1, hostOps0_2, List.flatten_cons, List.flatten_nil, List.append_nil, List.cons_append,
    List.nil_append]
  after_results
  rfl

end Cert.GraphLinear.Blocked

end
-- ==== Proof.Wrap.lean ====
/-
  Two small facts about 32-bit signed words and about an all-true mask.

  (1) An index s with -50000 <= s < 50000, counted from the front (50000 added when s is negative), lies
      in 0 .. 49999: for s >= 0 it is s itself, for s < 0 it is s + 50000, and neither sum leaves the
      32-bit range, so nothing wraps.
  (2) Reducing an array of single bits by "and", starting from 1, gives 1 when every bit is 1.
-/
import Idealize.ShloMosaic.Lib.ReduceAll
import Idealize.ShloMosaic.Lib.ValueIdx

namespace Cert.GraphLinear

open Idealize.ShloMosaic

/-- The signed value of a 32-bit word from its unsigned one. -/
theorem toInt_cases (s : BitVec 32) :
    s.toInt = if s.toNat < 2147483648 then (s.toNat : Int) else (s.toNat : Int) - 4294967296 := by
  rw [BitVec.toInt_eq_toNat_cond]
  by_cases hc : s.toNat < 2147483648
  · rw [if_pos hc, if_pos (by omega)]
  · rw [if_neg hc, if_neg (by omega)]; rfl

/-- (1): the front-counted index is in range. -/
theorem front_in_range (s : BitVec 32) (h1 : (-50000 : Int) ≤ s.toInt) (h2 : s.toInt < 50000) :
    (0 : Int) ≤ (Scalar.select (IntOp.cmpi .slt s 0#32) (IntOp.addi s 50000#32) s).toInt
      ∧ (Scalar.select (IntOp.cmpi .slt s 0#32) (IntOp.addi s 50000#32) s).toInt ≤ 49999 := by
  have hs := toInt_cases s
  have h0 : (0#32 : BitVec 32).toInt = 0 := by decide
  by_cases hlt : s.toNat < 2147483648
  · rw [if_pos hlt] at hs
    have hc : ¬ IntOp.cmpi .slt s 0#32 = 1#1 := fun h => by
      have h' := IntOp.cmpi_slt.1 h
      rw [h0] at h'
      omega
    rw [ValueIdx.eq_zero_of_ne_one hc, ValueIdx.select_zero]
    omega
  · rw [if_neg hlt] at hs
    have hc : IntOp.cmpi .slt s 0#32 = 1#1 := IntOp.cmpi_slt.2 (by rw [h0]; omega)
    rw [hc, ValueIdx.select_one]
    have ha := toInt_cases (IntOp.addi s 50000#32)
    have hn : (IntOp.addi s 50000#32).toNat = (s.toNat + 50000) % 4294967296 := by
      show (s + 50000#32).toNat = _
      rw [BitVec.toNat_add]; rfl
    rw [hn] at ha
    have hm : (s.toNat + 50000) % 4294967296 < 2147483648 := by omega
    rw [if_pos hm] at ha
    omega

/-- A left fold by "and" from 1 over bits that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- (2): an "and"-reduction of an all-ones array from 1 is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  rw [Host.reduce_eq_foldl, hi]
  exact foldl_andi_ones x hx _

end Cert.GraphLinear
-- ==== Proof.KernelMask.lean ====
/-
  Under the precondition the blocked program's out-of-range filler is never used.

  Every source index s has -50000 <= s < 50000, so the index counted from the front lies in 0 .. 49999, both
  range tests are true for every edge, their "and" over the one-column table is true for every edge, and the
  selection between the looked-up row and the filler takes the looked-up row everywhere. What the blocked
  program sums up by destination is therefore the plain row lookup, as in the unblocked program.
-/
import proofs.«425712_j10797547782619_1_alg».proof.Proof.KernelHostDefs
import proofs.«425712_j10797547782619_1_alg».proof.Proof.Wrap
import Idealize.ShloMosaic.Lib.Pipeline.Value

noncomputable section

namespace Cert.GraphLinear.Blocked

open Cert.KernelIdeal Cert.KernelIdeal.Gen Idealize.ShloMosaic Idealize.ShloMosaic.ValueIdx

variable {F : FTy → Type} [FloatOps F]

/-- The edge an entry of the one-column table, or a row of the 1250000 x 64 arrays, belongs to. -/
abbrev edgeOfCol (k : S1250000x1.Idx) : S1250000.Idx := fun a => match a with
  | ⟨0, _⟩ => ⟨(k 0).val, (k 0).isLt⟩
abbrev edgeOfRow (i : S1250000x64.Idx) : S1250000.Idx := fun a => match a with
  | ⟨0, _⟩ => ⟨(i 0).val, (i 0).isLt⟩

/-- A vector over the edges laid out as the one-column table reads, at an entry, the vector at the entry's edge. -/
theorem col_apply {α : Type} (v : S1250000.Idx → α) (k : S1250000x1.Idx) :
    broadcastInDim S1250000x1 ![0] bcast_S1250000_S1250000x1_0 v k = v (edgeOfCol k) :=
  broadcastInDim_apply _ bcast_S1250000_S1250000x1_0 v k (edgeOfCol k) (fun a => match a with
    | ⟨0, _⟩ => by show (k 0).val = if (1250000 : Nat) = 1 then 0 else (k 0).val; rw [if_neg (by decide)])

/-- A vector over the edges laid along the 64 columns reads, at (e, j), the vector at edge e. -/
theorem rows_apply {α : Type} (v : S1250000.Idx → α) (i : S1250000x64.Idx) :
    broadcastInDim S1250000x64 ![0] bcast_S1250000_S1250000x64_0 v i = v (edgeOfRow i) :=
  broadcastInDim_apply _ bcast_S1250000_S1250000x64_0 v i (edgeOfRow i) (fun a => match a with
    | ⟨0, _⟩ => by show (i 0).val = if (1250000 : Nat) = 1 then 0 else (i 0).val; rw [if_neg (by decide)])

/-- Entry (e, 0) of the start-index column is the front-counted source index of edge e. -/
theorem startCol_apply (ei : IVec S2x1250000 32) (k : S1250000x1.Idx) :
    startCol ei k = Scalar.select (IntOp.cmpi .slt (src ei (edgeOfCol k)) 0#32) (IntOp.addi (src ei (edgeOfCol k)) 50000#32) (src ei (edgeOfCol k)) := by
  unfold startCol
  rw [col_apply]
  rfl

/-- With every source index in -50000 .. 49999 the range test is true at every edge and column. -/
theorem inRange_ones (ei : IVec S2x1250000 32)
    (hb : ∀ e : S1250000.Idx, (-50000 : Int) ≤ (src ei e).toInt ∧ (src ei e).toInt < 50000) :
    inRange ei = fun _ => 1#1 := by
  funext i
  unfold inRange
  rw [rows_apply]
  refine reduce_andi_ones _ _ _ _ (fun k => ?_) (fun _ => rfl) _
  have hf := front_in_range (src ei (edgeOfCol k)) (hb _).1 (hb _).2
  refine IntOp.andi_eq_one.2 ⟨IntOp.cmpi_sge.2 ?_, IntOp.cmpi_sle.2 ?_⟩
  · show (0#32 : BitVec 32).toInt ≤ (startCol ei k).toInt
    rw [startCol_apply, show (0#32 : BitVec 32).toInt = 0 by decide]
    exact hf.1
  · show (startCol ei k).toInt ≤ (49999#32 : BitVec 32).toInt
    rw [startCol_apply, show (49999#32 : BitVec 32).toInt = 49999 by decide]
    exact hf.2

/-- So the rows taken are the rows looked up. -/
theorem taken_eq_looked (z : FVec F S50000x64 .f32) (ei : IVec S2x1250000 32)
    (hb : ∀ e : S1250000.Idx, (-50000 : Int) ≤ (src ei e).toInt ∧ (src ei e).toInt < 50000) :
    taken z ei = looked z ei := by
  unfold taken
  rw [inRange_ones ei hb]
  funext i
  exact select_one _ _

end Cert.GraphLinear.Blocked

end
-- ==== Proof.SpecFlat.lean ====
/-
  The same function with the two biases given as plain vectors of 64 numbers (how the unblocked program
  holds them), and the remark that re-laying such a vector as a 1 x 64 row changes nothing: entry (0, k) of
  the row is entry k of the vector.
-/
import proofs.«425712_j10797547782619_1_alg».proof.Proof.Spec
import Idealize.ShloMosaic.Lib.Pipeline.Value

noncomputable section

namespace Cert.GraphLinear

open Idealize.ShloMosaic Idealize.ShloMosaic.ValueIdx

/-- The whole result over arrays of `R` rows, the biases as vectors. -/
def layerFlat (R : Nat) (z a : FVec Ideal ⟨2, ![R, 64]⟩ .f32) (Wr Wn : FVec Ideal ⟨2, ![64, 64]⟩ .f32)
    (bc : FVec Ideal ⟨1, ![64]⟩ .f32) (Wl : FVec Ideal ⟨2, ![64, 64]⟩ .f32) (bl : FVec Ideal ⟨1, ![64]⟩ .f32) :
    FVec Ideal ⟨2, ![R, 64]⟩ .f32 :=
  fun i => rowOut (fun j => z (ix2 (i 0) j)) (fun j => a (ix2 (i 0) j)) (mat Wr) (mat Wn) (mat Wl)
    (fun k => bc (ix1 k)) (fun k => bl (ix1 k)) (i 1)

/-- A vector of 64 re-laid as a 1 x 64 row reads, at column k, the vector's entry k. -/
theorem rowVec_relaid (b : FVec Ideal ⟨1, ![64]⟩ .f32) (h : (⟨1, ![64]⟩ : Shape).ShapeCasts ⟨2, ![1, 64]⟩) :
    rowVec (shapeCast ⟨2, ![1, 64]⟩ b h) = fun k => b (ix1 k) := by
  funext k
  exact shapeCast_apply b h (ix2 (0 : Fin 1) k) (ix1 k) (by
    rewrite [Shape.rowMajor_val_two, Shape.rowMajor_val_one]
    show k.val = 0 * 64 + k.val
    omega)

/-- So the specification over re-laid biases is the specification over the vectors. -/
theorem layer_relaid (R : Nat) (z a : FVec Ideal ⟨2, ![R, 64]⟩ .f32) (Wr Wn : FVec Ideal ⟨2, ![64, 64]⟩ .f32)
    (bc : FVec Ideal ⟨1, ![64]⟩ .f32) (Wl : FVec Ideal ⟨2, ![64, 64]⟩ .f32) (bl : FVec Ideal ⟨1, ![64]⟩ .f32)
    (h h' : (⟨1, ![64]⟩ : Shape).ShapeCasts ⟨2, ![1, 64]⟩) :
    layer R z a Wr Wn (shapeCast ⟨2, ![1, 64]⟩ bc h) Wl (shapeCast ⟨2, ![1, 64]⟩ bl h') = layerFlat R z a Wr Wn bc Wl bl := by
  funext i
  unfold layer layerFlat
  rw [rowVec_relaid, rowVec_relaid]

end Cert.GraphLinear

end
-- ==== Proof.KernelValue.lean ====
/-
  The blocked program's output array as the specification of its ARGUMENTS.

  The launch reads z and the three weight matrices as they were passed; the aggregate it reads is the
  host part's sum, by destination, of the rows taken (under the precondition: the rows looked up); the two
  bias rows are the bias vectors re-laid. Put together, the output array is the flat specification of the
  arguments and of that aggregate.
-/
import proofs.«425712_j10797547782619_1_alg».proof.Proof.KernelArray
import proofs.«425712_j10797547782619_1_alg».proof.Proof.KernelHost
import proofs.«425712_j10797547782619_1_alg».proof.Proof.KernelHostBias
import proofs.«425712_j10797547782619_1_alg».proof.Proof.KernelMask
import proofs.«425712_j10797547782619_1_alg».proof.Proof.SpecFlat

noncomputable section

namespace Cert.GraphLinear.Blocked

open Cert.KernelIdeal Cert.KernelIdeal.Gen Idealize.ShloMosaic Idealize.ShloMosaic.TcCoe Idealize.SL.Sem

variable (m : (ℓ : Loc nD τ sig) → Buf (Elt Ideal) ℓ)

/-- What the launch found, in terms of the arguments. -/
theorem found_eq (c : Dev nD)
    (hb : ∀ e : S1250000.Idx, (-50000 : Int) ≤ (src (m ((c : Thread nD τ).loc main_arg1)) e).toInt
      ∧ (src (m ((c : Thread nD τ).loc main_arg1)) e).toInt < 50000) :
    found m c = layerFlat 50000 (m ((c : Thread nD τ).loc main_arg0))
      (summed (m ((c : Thread nD τ).loc main_arg1)) (looked (m ((c : Thread nD τ).loc main_arg0)) (m ((c : Thread nD τ).loc main_arg1))))
      (m ((c : Thread nD τ).loc main_arg2)) (m ((c : Thread nD τ).loc main_arg3)) (m ((c : Thread nD τ).loc main_arg4))
      (m ((c : Thread nD τ).loc main_arg5)) (m ((c : Thread nD τ).loc main_arg6)) := by
  have ez : zArr m c = m ((c : Thread nD τ).loc main_arg0) := V_main_arg0 m c
  have ea : aggArr m c = summed (m ((c : Thread nD τ).loc main_arg1)) (looked (m ((c : Thread nD τ).loc main_arg0)) (m ((c : Thread nD τ).loc main_arg1))) :=
    (V_agg m c).trans (by rw [taken_eq_looked _ _ hb])
  have e2 : wrootArr m c = m ((c : Thread nD τ).loc main_arg2) := V_main_arg2 m c
  have e3 : wneiArr m c = m ((c : Thread nD τ).loc main_arg3) := V_main_arg3 m c
  have e4 : bconvArr m c = shapeCast S1x64 (m ((c : Thread nD τ).loc main_arg4)) shapeCasts_S64_S1x64 := V_biasConv m c
  have e5 : wlinArr m c = m ((c : Thread nD τ).loc main_arg5) := V_main_arg5 m c
  have e6 : blinArr m c = shapeCast S1x64 (m ((c : Thread nD τ).loc main_arg6)) shapeCasts_S64_S1x64 := V_biasLin m c
  unfold found
  rw [ez, ea, e2, e3, e4, e5, e6]
  exact layer_relaid 50000 _ _ _ _ _ _ _ _ _

end Cert.GraphLinear.Blocked

end
-- ==== Proof.PreRange.lean ====
/-
  What the precondition says about the edge list: every source index s satisfies -50000 <= s < 50000,
  the range in which an index into an axis of 50000 rows, counted from either end, names a row.
  (The precondition's other conjuncts, that the float inputs are finite, are not used by this proof.)
-/
import proofs.«425712_j10797547782619_1_alg».proof.Pre_finite_inputs
import Idealize.ShloMosaic.Lib.ReduceAll
import Idealize.ShloMosaic.Lib.ValueIdx

noncomputable section

namespace Cert.GraphLinear

open Idealize.ShloMosaic Cert.Pre_finite_inputs Cert.Pre_finite_inputs.Facts

variable {F : FTy → Type} [FloatOps F] [Cert.Pre_finite_inputs.Facts]

/-- Each edge's source index, as the precondition reads it off row 0 of the edge list. -/
def preSrc (ei : IVec S2x1250000 32) : IVec S1250000 32 :=
  shapeCast S1250000 (extractStridedSlice S1x1250000 ![0, 0] ei slices_S2x1250000_S1x1250000_0_0) shapeCasts_S1x1250000_S1250000

/-- Under the precondition every source index lies in -50000 .. 49999. -/
theorem preSrc_bounds (a0 : FVec F S50000x64 .f32) (ei : IVec S2x1250000 32) (a2 a3 : FVec F S64x64 .f32) (a4 : FVec F S64 .f32)
    (a5 : FVec F S64x64 .f32) (a6 : FVec F S64 .f32) (h : fn (F := F) a0 ei a2 a3 a4 a5 a6 = fun _ => 1#1) (e : S1250000.Idx) :
    (-50000 : Int) ≤ (preSrc ei e).toInt ∧ (preSrc ei e).toInt < 50000 := by
  haveI : Subsingleton S_.Idx := ⟨fun a b => funext fun d => d.elim0⟩
  have h0 := congrFun h ValueIdx.ix0
  dsimp only [fn, fn_part1, fn_part2] at h0
  have h1 := (IntOp.andi_eq_one.1 h0).2
  have h2 := Host.reduce_andi_all _ _ _ _ _ h1 e
  obtain ⟨hge, hlt⟩ := IntOp.andi_eq_one.1 h2
  have hge' : (4294917296#32 : BitVec 32).toInt ≤ (preSrc ei e).toInt := IntOp.cmpi_sge.1 hge
  have hlt' : (preSrc ei e).toInt < (50000#32 : BitVec 32).toInt := IntOp.cmpi_slt.1 hlt
  rw [show (4294917296#32 : BitVec 32).toInt = -50000 by decide] at hge'
  rw [show (50000#32 : BitVec 32).toInt = 50000 by decide] at hlt'
  exact ⟨hge', hlt'⟩

end Cert.GraphLinear

end
-- ==== Proof.RefValue.lean ====
/-
  The unblocked program computes the specification.

  Its last value is (h times Wl) plus the second bias laid over the rows, with h = (z times Wr) plus
  (aggregate times Wn) plus the first bias laid over the rows, each product over whole 50000 x 64 arrays.
  Over the extended reals a product's entry (r, c) is the sum over the 64 inner positions of left (r, k)
  times right (k, c), and a bias laid over the rows reads, at (r, c), the bias at c. Entry by entry that is
  the specification's row function of row r of z and of the aggregate.
-/
import proofs.«425712_j10797547782619_1_alg».proof.Proof.Gen.ReferenceIdeal.Read
import proofs.«425712_j10797547782619_1_alg».proof.Proof.SpecFlat

noncomputable section

namespace Cert.GraphLinear.Whole

open Cert.ReferenceIdeal Cert.ReferenceIdeal.Gen Cert.ReferenceIdeal.Read Idealize.ShloMosaic Idealize.ShloMosaic.ValueIdx

/-- The unblocked program's result is the specification of its arguments and of the aggregate it forms. -/
theorem result_eq (x0 : (⟨S50000x64, .f32⟩ : BufTy).Contents (Elt Ideal)) (x1 : (⟨S2x1250000, .i32⟩ : BufTy).Contents (Elt Ideal))
    (x2 x3 : (⟨S64x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal)) :
    val_main_v23 (F := Ideal) x0 x1 x2 x3 x4 x5 x6
      = layerFlat 50000 x0 (val_main_v13 (F := Ideal) x0 x1) x2 x3 x4 x5 x6 := by
  funext i
  obtain ⟨r, c, rfl⟩ : ∃ (r : Fin 50000) (c : Fin 64), i = ix2 r c := ⟨i 0, i 1, eq_ix2 i⟩
  have l20 : ∀ k : Fin 64, lidx_main_v20 (ix2 r c) k = ix2 r k := fun k => funext fun a => by
    match a with
    | ⟨0, _⟩ => rfl
    | ⟨1, _⟩ => rfl
  have r20 : ∀ k : Fin 64, ridx_main_v20 (ix2 r c) k = ix2 k c := fun k => funext fun a => by
    match a with
    | ⟨0, _⟩ => rfl
    | ⟨1, _⟩ => rfl
  have l14 : ∀ k j : Fin 64, lidx_main_v14 (ix2 r k) j = ix2 r j := fun k j => funext fun a => by
    match a with
    | ⟨0, _⟩ => rfl
    | ⟨1, _⟩ => rfl
  have r14 : ∀ k j : Fin 64, ridx_main_v14 (ix2 r k) j = ix2 j k := fun k j => funext fun a => by
    match a with
    | ⟨0, _⟩ => rfl
    | ⟨1, _⟩ => rfl
  have l15 : ∀ k j : Fin 64, lidx_main_v15 (ix2 r k) j = ix2 r j := fun k j => funext fun a => by
    match a with
    | ⟨0, _⟩ => rfl
    | ⟨1, _⟩ => rfl
  have r15 : ∀ k j : Fin 64, ridx_main_v15 (ix2 r k) j = ix2 j k := fun k j => funext fun a => by
    match a with
    | ⟨0, _⟩ => rfl
    | ⟨1, _⟩ => rfl
  have b18 : ∀ k : Fin 64, idx_main_v17 (idx_main_v18 (ix2 r k)) = ix1 k := fun k => funext fun a => by
    match a with
    | ⟨0, _⟩ => rfl
  have b22 : idx_main_v21 (idx_main_v22 (ix2 r c)) = ix1 c := funext fun a => by
    match a with
    | ⟨0, _⟩ => rfl
  rw [val_main_v23_apply, val_main_v20_apply, val_main_v22_apply, val_main_v21_apply, b22]
  unfold layerFlat rowOut
  refine congrArg₂ (· + ·) (Finset.sum_congr rfl fun k _ => ?_) rfl
  rw [l20 k, r20 k]
  refine congrArg₂ (· * ·) ?_ rfl
  rw [val_main_v19_apply, val_main_v16_apply, val_main_v14_apply, val_main_v15_apply, val_main_v18_apply, val_main_v17_apply, b18 k]
  refine congrArg₂ (· + ·) (congrArg₂ (· + ·) (Finset.sum_congr rfl fun j _ => ?_) (Finset.sum_congr rfl fun j _ => ?_)) rfl
  · rw [l14 k j, r14 k j]
  · rw [l15 k j, r15 k j]

end Cert.GraphLinear.Whole

end
-- ==== Proof.lean ====
/-
  A graph layer, blocked by rows, against its plain statement: equal over the extended reals.

  Both programs first form, from the edge list, the aggregate a: row d of a is the sum, over the edges that
  end at node d, of the feature row of the edge's source node (a negative source index counts from the
  end). Then both compute, for every node r,

      out[r] = ( z[r] Wr + a[r] Wn + bc ) Wl + bl,

  the plain program by three products over whole 50000 x 64 arrays, the blocked one by the same three products
  on ten blocks of 5000 rows, with some changes of float format in between. Over the extended reals a change
  of format is the identity and every product is the sum of products it denotes, so the two results are the
  same expression in the arguments, entry by entry: output row r needs rows r of z and of a only, and the ten
  blocks of rows cover the array. No law of arithmetic is used, so the finiteness of the float inputs is not.

  The one place where the programs differ is the row lookup: for a source index outside the table the plain
  program's lookup stays inside the table, while the blocked program's puts a "no number" filler. The
  precondition's last conjunct, -50000 <= source index < 50000 (the indices that name a row of a 50000-row
  table, from either end), keeps every index inside, so the filler is never chosen.

  The three frame claims are the generated frames (the plain program's: its generated run, the result
  dropped); the idealization rewrote nothing, so that claim is trivial.
-/
import proofs.«425712_j10797547782619_1_alg».proof.Defs
import proofs.«425712_j10797547782619_1_alg».proof.Proof.Gen.Kernel
import proofs.«425712_j10797547782619_1_alg».proof.Proof.Gen.Kernel.Skeleton
import proofs.«425712_j10797547782619_1_alg».proof.Proof.Gen.Kernel.Launch
import proofs.«425712_j10797547782619_1_alg».proof.Proof.Gen.Kernel.Points
import proofs.«425712_j10797547782619_1_alg».proof.Proof.Gen.Kernel.Frame
import proofs.«425712_j10797547782619_1_alg».proof.Proof.Gen.KernelIdeal
import proofs.«425712_j10797547782619_1_alg».proof.Proof.Gen.KernelIdeal.Skeleton
import proofs.«425712_j10797547782619_1_alg».proof.Proof.Gen.KernelIdeal.Launch
import proofs.«425712_j10797547782619_1_alg».proof.Proof.Gen.KernelIdeal.Points
import proofs.«425712_j10797547782619_1_alg».proof.Proof.Gen.KernelIdeal.Frame
import proofs.«425712_j10797547782619_1_alg».proof.Proof.Gen.ReferenceIdeal
import proofs.«425712_j10797547782619_1_alg».proof.Proof.Gen.Pre_finite_inputs
import proofs.«425712_j10797547782619_1_alg».proof.Proof.Gen.KernelIdeal.Value
import proofs.«425712_j10797547782619_1_alg».proof.Proof.Gen.ReferenceIdeal.Run
import proofs.«425712_j10797547782619_1_alg».proof.Proof.Gen.ReferenceIdeal.Read
import proofs.«425712_j10797547782619_1_alg».proof.Proof.KernelValue
import proofs.«425712_j10797547782619_1_alg».proof.Proof.PreRange
import proofs.«425712_j10797547782619_1_alg».proof.Proof.RefValue
import Idealize.ShloMosaic.Adequacy
import Idealize.ShloMosaic.Init

noncomputable section

namespace Cert.Proof

open Idealize.ShloMosaic Idealize.ShloMosaic.TcCoe Idealize.SL.Sem Cert.GraphLinear

theorem frame_blocked : Cert.frame_Kernel := fun m ρ _ => Cert.Kernel.Gen.frame m ρ

theorem frame_blockedIdeal : Cert.frame_KernelIdeal := fun m ρ _ => Cert.KernelIdeal.Gen.frame m ρ

theorem frame_plain : Cert.frame_ReferenceIdeal := fun m ρ _ =>
  (θ_run Cert.ReferenceIdeal.defs _ _).mono (fun _ h c => (h c).2) (Cert.ReferenceIdeal.Value.run (F := Ideal) m ρ)

/-- The aggregate the plain program forms is the one the blocked program forms from looked-up rows: the same
    operations on the same edge list. -/
theorem aggregate_same (x0 : FVec Ideal Cert.KernelIdeal.S50000x64 .f32) (x1 : IVec Cert.KernelIdeal.S2x1250000 32) :
    Cert.ReferenceIdeal.Read.val_main_v13 (F := Ideal) x0 x1 = Blocked.summed x1 (Blocked.looked x0 x1) := rfl

/-- Both programs end with the specification of the arguments. -/
theorem same_result : Cert.algebraic_KernelIdeal_ReferenceIdeal := by
  intro m ρ m' ρ' hpre hagree
  refine ⟨fun c => layerFlat 50000 (m ((c : Thread Cert.KernelIdeal.nD Cert.KernelIdeal.τ).loc Cert.KernelIdeal.main_arg0))
      (Blocked.summed (m ((c : Thread Cert.KernelIdeal.nD Cert.KernelIdeal.τ).loc Cert.KernelIdeal.main_arg1))
        (Blocked.looked (m ((c : Thread Cert.KernelIdeal.nD Cert.KernelIdeal.τ).loc Cert.KernelIdeal.main_arg0))
          (m ((c : Thread Cert.KernelIdeal.nD Cert.KernelIdeal.τ).loc Cert.KernelIdeal.main_arg1))))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6)), ?_, ?_⟩
  · refine (θ_run Cert.KernelIdeal.defs _ _).mono (fun r h c => ⟨(h c).1.trans ?_, (h c).2⟩)
      (Cert.KernelIdeal.Value.run_blocks (F := Ideal) m ρ)
    exact (Blocked.final m c).trans (Blocked.found_eq m c (fun e => preSrc_bounds _ _ _ _ _ _ _ (hpre c) e))
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v23_eq _ _ _ _ _ _ _).trans ((Whole.result_eq _ _ _ _ _ _ _).trans ?_)
    rw [aggregate_same, (hagree c).1, (hagree c).2.1, (hagree c).2.2.1, (hagree c).2.2.2.1, (hagree c).2.2.2.2.1,
      (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_blocked, frame_blockedIdeal, frame_plain, trivial, same_result⟩

end Cert.Proof

end
